-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8388608x9 : Shape := ⟨2, ![8388608, 9]⟩
abbrev S_ : Shape := ⟨0, ![]⟩

class Facts : Prop where
  bcast_S_S8388608x9 : S_.BroadcastsInDim S8388608x9 (![] : Fin 0 → Fin S8388608x9.rank)
  reducesTo_S8388608x9_S_d0_1 : S8388608x9.ReducesTo [0, 1] S_
  h_S_ : 0 < S_.numel

variable [Facts]

def fn {F : FTy → Type} [FloatOps F] (main_arg0 : FVec F S8388608x9 .f32) : IVec S_ 1 :=
  let main_v0 : FVec F S8388608x9 .f32 := Host.absf main_arg0
  let main_cst : FVec F S_ .f32 := constant S_ .f32 0x7F800000#32
  let main_v1 : FVec F S8388608x9 .f32 := broadcastInDim S8388608x9 ![] bcast_S_S8388608x9 main_cst
  let main_v2 : IVec S8388608x9 1 := cmpf .olt main_v0 main_v1
  let main_c : IVec S_ 1 := constantI S_ 1 1#1
  let main_v3 : IVec S_ 1 := (fun x v => Host.reduce IntOp.andi x v reducesTo_S8388608x9_S_d0_1 h_S_) main_v2 main_c
  main_v3
-- ==== Kernel.lean ====
abbrev S8388608x9 : Shape := ⟨2, ![8388608, 9]⟩
abbrev S8388608x1 : Shape := ⟨2, ![8388608, 1]⟩
abbrev S16384x9 : Shape := ⟨2, ![16384, 9]⟩
abbrev S16384x1 : Shape := ⟨2, ![16384, 1]⟩
abbrev S16384 : Shape := ⟨1, ![16384]⟩

abbrev nBuf : Space → Nat
  | .hbm => 2
  | .vmem => 4
  | .smem => 0
  | _ => 0

abbrev bufTy : (tb : Table) → Fin (tcTables nBuf tb) → BufTy
  | .hbm, ⟨0, _⟩ => ⟨S8388608x9, .f32⟩
  | .hbm, ⟨1, _⟩ => ⟨S8388608x1, .f32⟩
  | .local _ .vmem, ⟨0, _⟩ => ⟨S16384x9, .f32⟩
  | .local _ .vmem, ⟨1, _⟩ => ⟨S16384x9, .f32⟩
  | .local _ .vmem, ⟨2, _⟩ => ⟨S16384x1, .f32⟩
  | .local _ .vmem, ⟨3, _⟩ => ⟨S16384x1, .f32⟩
  | _, _ => ⟨S8388608x9, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![512], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384x9 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16384x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S16384x9_S16384x9_0_0 : ∀ a, (![0, 0] : Fin 2 → Nat) a + S16384x9.size a ≤ S16384x9.size a
  h_S16384x9 : 0 < S16384x9.numel
  slices_S16384x9_o0_0_S16384x1 : S16384x9.Slices ![0, 0] S16384x1
  shapeCasts_S16384x1_S16384 : S16384x1.ShapeCasts S16384
  slices_S16384x9_o0_1_S16384x1 : S16384x9.Slices ![0, 1] S16384x1
  slices_S16384x9_o0_2_S16384x1 : S16384x9.Slices ![0, 2] S16384x1
  slices_S16384x9_o0_3_S16384x1 : S16384x9.Slices ![0, 3] S16384x1
  slices_S16384x9_o0_4_S16384x1 : S16384x9.Slices ![0, 4] S16384x1
  slices_S16384x9_o0_5_S16384x1 : S16384x9.Slices ![0, 5] S16384x1
  slices_S16384x9_o0_6_S16384x1 : S16384x9.Slices ![0, 6] S16384x1
  slices_S16384x9_o0_7_S16384x1 : S16384x9.Slices ![0, 7] S16384x1
  slices_S16384x9_o0_8_S16384x1 : S16384x9.Slices ![0, 8] S16384x1
  shapeCasts_S16384_S16384x1 : S16384.ShapeCasts S16384x1
  inb_S16384x1_S16384x1_0_0 : ∀ a, (![0, 0] : Fin 2 → Nat) a + S16384x1.size a ≤ S16384x1.size a
  h_S16384x1 : 0 < S16384x1.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x9.size a ≤ S8388608x9.size a
  hwx0_0 : ∀ i : grid0.Coords, EltTy.bits .f32 = 32 ∨ (Rect.block (s := S8388608x9) S16384x9.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16384x1.size a ≤ S8388608x1.size a
  hwx0_1 : ∀ i : grid0.Coords, EltTy.bits .f32 = 32 ∨ (Rect.block (s := S8388608x1) S16384x1.size (cc0_transform_1 i) (hinb0_1 i)).WholeWords (EltTy.packing .f32)

variable [Facts₀]

abbrev win0_0 : Pipeline.Window sig grid0 :=
  Pipeline.Window.ofSpec (Memref.whole main_arg0) S16384x9.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S16384x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8388608x9 : Shape := ⟨2, ![8388608, 9]⟩
abbrev S8388608x1 : Shape := ⟨2, ![8388608, 1]⟩
abbrev S8388608 : Shape := ⟨1, ![8388608]⟩

abbrev nBuf : Space → Nat
  | .hbm => 34
  | .vmem => 0
  | .smem => 0
  | _ => 0

abbrev bufTy : (tb : Table) → Fin (tcTables nBuf tb) → BufTy
  | .hbm, ⟨0, _⟩ => ⟨S8388608x9, .f32⟩
  | .hbm, ⟨1, _⟩ => ⟨S8388608x1, .f32⟩
  | .hbm, ⟨2, _⟩ => ⟨S8388608, .f32⟩
  | .hbm, ⟨3, _⟩ => ⟨S8388608x1, .f32⟩
  | .hbm, ⟨4, _⟩ => ⟨S8388608, .f32⟩
  | .hbm, ⟨5, _⟩ => ⟨S8388608x1, .f32⟩
  | .hbm, ⟨6, _⟩ => ⟨S8388608, .f32⟩
  | .hbm, ⟨7, _⟩ => ⟨S8388608x1, .f32⟩
  | .hbm, ⟨8, _⟩ => ⟨S8388608, .f32⟩
  | .hbm, ⟨9, _⟩ => ⟨S8388608x1, .f32⟩
  | .hbm, ⟨10, _⟩ => ⟨S8388608, .f32⟩
  | .hbm, ⟨11, _⟩ => ⟨S8388608x1, .f32⟩
  | .hbm, ⟨12, _⟩ => ⟨S8388608, .f32⟩
  | .hbm, ⟨13, _⟩ => ⟨S8388608x1, .f32⟩
  | .hbm, ⟨14, _⟩ => ⟨S8388608, .f32⟩
  | .hbm, ⟨15, _⟩ => ⟨S8388608x1, .f32⟩
  | .hbm, ⟨16, _⟩ => ⟨S8388608, .f32⟩
  | .hbm, ⟨17, _⟩ => ⟨S8388608x1, .f32⟩
  | .hbm, ⟨18, _⟩ => ⟨S8388608, .f32⟩
  | .hbm, ⟨19, _⟩ => ⟨S8388608, .f32⟩
  | .hbm, ⟨20, _⟩ => ⟨S8388608, .f32⟩
  | .hbm, ⟨21, _⟩ => ⟨S8388608, .f32⟩
  | .hbm, ⟨22, _⟩ => ⟨S8388608, .f32⟩
  | .hbm, ⟨23, _⟩ => ⟨S8388608, .f32⟩
  | .hbm, ⟨24, _⟩ => ⟨S8388608, .f32⟩
  | .hbm, ⟨25, _⟩ => ⟨S8388608, .f32⟩
  | .hbm, ⟨26, _⟩ => ⟨S8388608, .f32⟩
  | .hbm, ⟨27, _⟩ => ⟨S8388608, .f32⟩
  | .hbm, ⟨28, _⟩ => ⟨S8388608, .f32⟩
  | .hbm, ⟨29, _⟩ => ⟨S8388608, .f32⟩
  | .hbm, ⟨30, _⟩ => ⟨S8388608, .f32⟩
  | .hbm, ⟨31, _⟩ => ⟨S8388608, .f32⟩
  | .hbm, ⟨32, _⟩ => ⟨S8388608, .f32⟩
  | .hbm, ⟨33, _⟩ => ⟨S8388608x1, .f32⟩
  | _, _ => ⟨S8388608x9, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_v20 : Ref sig .tc := ⟨.hbm, 21, rfl⟩
abbrev main_v21 : Ref sig .tc := ⟨.hbm, 22, rfl⟩
abbrev main_v22 : Ref sig .tc := ⟨.hbm, 23, rfl⟩
abbrev main_v23 : Ref sig .tc := ⟨.hbm, 24, rfl⟩
abbrev main_v24 : Ref sig .tc := ⟨.hbm, 25, rfl⟩
abbrev main_v25 : Ref sig .tc := ⟨.hbm, 26, rfl⟩
abbrev main_v26 : Ref sig .tc := ⟨.hbm, 27, rfl⟩
abbrev main_v27 : Ref sig .tc := ⟨.hbm, 28, rfl⟩
abbrev main_v28 : Ref sig .tc := ⟨.hbm, 29, rfl⟩
abbrev main_v29 : Ref sig .tc := ⟨.hbm, 30, rfl⟩
abbrev main_v30 : Ref sig .tc := ⟨.hbm, 31, rfl⟩
abbrev main_v31 : Ref sig .tc := ⟨.hbm, 32, rfl⟩
abbrev main_v32 : Ref sig .tc := ⟨.hbm, 33, rfl⟩

abbrev nD : Nat := 1
abbrev τ : Topo := Topo.v7x

variable {F : FTy → Type} [FloatOps F]

class Facts₀ : Prop where
  slices_S8388608x9_S8388608x1_0_0 : S8388608x9.Slices ![0, 0] S8388608x1
  shapeCasts_S8388608x1_S8388608 : S8388608x1.ShapeCasts S8388608
  slices_S8388608x9_S8388608x1_0_1 : S8388608x9.Slices ![0, 1] S8388608x1
  slices_S8388608x9_S8388608x1_0_2 : S8388608x9.Slices ![0, 2] S8388608x1
  slices_S8388608x9_S8388608x1_0_3 : S8388608x9.Slices ![0, 3] S8388608x1
  slices_S8388608x9_S8388608x1_0_4 : S8388608x9.Slices ![0, 4] S8388608x1
  slices_S8388608x9_S8388608x1_0_5 : S8388608x9.Slices ![0, 5] S8388608x1
  slices_S8388608x9_S8388608x1_0_6 : S8388608x9.Slices ![0, 6] S8388608x1
  slices_S8388608x9_S8388608x1_0_7 : S8388608x9.Slices ![0, 7] S8388608x1
  slices_S8388608x9_S8388608x1_0_8 : S8388608x9.Slices ![0, 8] S8388608x1
  bcast_S8388608_S8388608x1_0 : S8388608.BroadcastsInDim S8388608x1 (![0] : Fin 1 → Fin S8388608x1.rank)

variable [Facts₀]

class Facts : Prop extends Facts₀ where

variable [Facts]
-- ==== Proof.RowDet.lean ====
/-
  The determinant of a 3 × 3 matrix kept as nine consecutive numbers (row-major: [[x0 x1 x2] [x3 x4 x5] [x6 x7 x8]]), by
  cofactor expansion along its first row,

      x0 · (x4 · x8 − x5 · x7) − x1 · (x3 · x8 − x5 · x6) + x2 · (x3 · x7 − x4 · x6),

  and, for a table of n such rows, the [n, 1] column of the rows' determinants. The numbers are extended reals, and the
  expression is kept in exactly this grouping — three products of an entry with a 2 × 2 minor, the second subtracted from
  the first and the third added to the difference — so that no law of arithmetic (none of which is safe at the
  infinities beyond commutativity and associativity) is ever needed to compare two programs that both compute it this
  way: they are compared entry by entry.
-/
import Idealize.ShloMosaic.PureOps.Ideal
import Idealize.ShloMosaic.Lib.ValueIdx

noncomputable section

namespace Cert.RowDet

open Idealize.ShloMosaic Idealize.ShloMosaic.ValueIdx

/-- The determinant of row `r` of an [n, 9] table read as a 3 × 3 matrix, expanded along the matrix's first row. -/
def det3 {n : Nat} (x : (⟨2, ![n, 9]⟩ : Shape).Idx → Ideal .f32) (r : Fin n) : Ideal .f32 :=
  x (ix2 r (0 : Fin 9)) * (x (ix2 r (4 : Fin 9)) * x (ix2 r (8 : Fin 9)) - x (ix2 r (5 : Fin 9)) * x (ix2 r (7 : Fin 9)))
    - x (ix2 r (1 : Fin 9)) * (x (ix2 r (3 : Fin 9)) * x (ix2 r (8 : Fin 9)) - x (ix2 r (5 : Fin 9)) * x (ix2 r (6 : Fin 9)))
    + x (ix2 r (2 : Fin 9)) * (x (ix2 r (3 : Fin 9)) * x (ix2 r (7 : Fin 9)) - x (ix2 r (4 : Fin 9)) * x (ix2 r (6 : Fin 9)))

/-- The column of determinants: entry (r, 0) is the determinant of row `r`. -/
def rowDets {n : Nat} (x : (⟨2, ![n, 9]⟩ : Shape).Idx → Ideal .f32) : (⟨2, ![n, 1]⟩ : Shape).Idx → Ideal .f32 :=
  fun i => det3 x (i 0)

/-- The determinant of a row depends on the row's nine entries only: row `r` of one table and row `r'` of another,
    holding the same nine numbers, have the same determinant (a block of rows cut out of a longer table, say). -/
theorem det3_congr {n n' : Nat} (x : (⟨2, ![n, 9]⟩ : Shape).Idx → Ideal .f32) (y : (⟨2, ![n', 9]⟩ : Shape).Idx → Ideal .f32)
    (r : Fin n) (r' : Fin n') (h : ∀ k : Fin 9, x (ix2 r k) = y (ix2 r' k)) : det3 x r = det3 y r' := by
  unfold det3
  simp only [h]

end Cert.RowDet

end
-- ==== Proof.RefRowDet.lean ====
/-
  The reference program slices the nine columns out of the [8388608, 9] table, flattens each to a vector of 8388608 entries,
  combines them entry by entry — x0 · (x4 · x8 − x5 · x7) − x1 · (x3 · x8 − x5 · x6) + x2 · (x3 · x7 − x4 · x6) — and
  re-attaches a unit axis. Read at an index (r, 0), every slice-and-flatten of column k is the table's entry (r, k), so the
  result is the column of the rows' 3 × 3 determinants, in the very grouping `Cert.RowDet.det3` spells.
-/
import proofs.«103723_j3728031613735_1_alg».proof.Proof.Gen.ReferenceIdeal.Read
import proofs.«103723_j3728031613735_1_alg».proof.Proof.RowDet

noncomputable section

namespace Cert.ReferenceIdeal.RefRowDet

open Cert.ReferenceIdeal Cert.ReferenceIdeal.Read Idealize.ShloMosaic Idealize.ShloMosaic.ValueIdx Cert.RowDet

/-- Column `k` sliced, flattened and read back through the final unit axis at (r, 0) sits at entry (r, k) of the table:
    the row coordinate passes through unchanged (a division by the unit extent 1), the column is the slice's offset. -/
theorem col0 (i : S8388608x1.Idx) : idx_main_v0 (idx_main_v1 (idx_main_v32 i)) = ix2 (i 0) (0 : Fin 9) := by
  funext a; apply Fin.ext
  match a with
  | ⟨0, _⟩ => exact Nat.div_one _
  | ⟨1, _⟩ => rfl
theorem col1 (i : S8388608x1.Idx) : idx_main_v2 (idx_main_v3 (idx_main_v32 i)) = ix2 (i 0) (1 : Fin 9) := by
  funext a; apply Fin.ext
  match a with
  | ⟨0, _⟩ => exact Nat.div_one _
  | ⟨1, _⟩ => rfl
theorem col2 (i : S8388608x1.Idx) : idx_main_v4 (idx_main_v5 (idx_main_v32 i)) = ix2 (i 0) (2 : Fin 9) := by
  funext a; apply Fin.ext
  match a with
  | ⟨0, _⟩ => exact Nat.div_one _
  | ⟨1, _⟩ => rfl
theorem col3 (i : S8388608x1.Idx) : idx_main_v6 (idx_main_v7 (idx_main_v32 i)) = ix2 (i 0) (3 : Fin 9) := by
  funext a; apply Fin.ext
  match a with
  | ⟨0, _⟩ => exact Nat.div_one _
  | ⟨1, _⟩ => rfl
theorem col4 (i : S8388608x1.Idx) : idx_main_v8 (idx_main_v9 (idx_main_v32 i)) = ix2 (i 0) (4 : Fin 9) := by
  funext a; apply Fin.ext
  match a with
  | ⟨0, _⟩ => exact Nat.div_one _
  | ⟨1, _⟩ => rfl
theorem col5 (i : S8388608x1.Idx) : idx_main_v10 (idx_main_v11 (idx_main_v32 i)) = ix2 (i 0) (5 : Fin 9) := by
  funext a; apply Fin.ext
  match a with
  | ⟨0, _⟩ => exact Nat.div_one _
  | ⟨1, _⟩ => rfl
theorem col6 (i : S8388608x1.Idx) : idx_main_v12 (idx_main_v13 (idx_main_v32 i)) = ix2 (i 0) (6 : Fin 9) := by
  funext a; apply Fin.ext
  match a with
  | ⟨0, _⟩ => exact Nat.div_one _
  | ⟨1, _⟩ => rfl
theorem col7 (i : S8388608x1.Idx) : idx_main_v14 (idx_main_v15 (idx_main_v32 i)) = ix2 (i 0) (7 : Fin 9) := by
  funext a; apply Fin.ext
  match a with
  | ⟨0, _⟩ => exact Nat.div_one _
  | ⟨1, _⟩ => rfl
theorem col8 (i : S8388608x1.Idx) : idx_main_v16 (idx_main_v17 (idx_main_v32 i)) = ix2 (i 0) (8 : Fin 9) := by
  funext a; apply Fin.ext
  match a with
  | ⟨0, _⟩ => exact Nat.div_one _
  | ⟨1, _⟩ => rfl

/-- The reference's result, as a function of the table, is the column of the rows' determinants: the entrywise products,
    differences and sum read at (r, 0), every operand column read at its entry of row r. -/
theorem result_eq (x : S8388608x9.Idx → Ideal .f32) : val_main_v32 (F := Ideal) x = rowDets x := by
  funext i
  simp only [val_main_v32_apply, val_main_v31_apply, val_main_v30_apply, val_main_v29_apply, val_main_v28_apply,
    val_main_v27_apply, val_main_v26_apply, val_main_v25_apply, val_main_v24_apply, val_main_v23_apply, val_main_v22_apply,
    val_main_v21_apply, val_main_v20_apply, val_main_v19_apply, val_main_v18_apply, val_main_v17_apply, val_main_v16_apply,
    val_main_v15_apply, val_main_v14_apply, val_main_v13_apply, val_main_v12_apply, val_main_v11_apply, val_main_v10_apply,
    val_main_v9_apply, val_main_v8_apply, val_main_v7_apply, val_main_v6_apply, val_main_v5_apply, val_main_v4_apply,
    val_main_v3_apply, val_main_v2_apply, val_main_v1_apply, val_main_v0_apply,
    col0, col1, col2, col3, col4, col5, col6, col7, col8]
  rfl

end Cert.ReferenceIdeal.RefRowDet

end
-- ==== Proof.BlockDet.lean ====
/-
  One grid point of the kernel loads a block of 16384 rows of the table, takes the nine columns of the block apart, and
  stores, as a [16384, 1] block, x0 · (x4 · x8 − x5 · x7) − x1 · (x3 · x8 − x5 · x6) + x2 · (x3 · x7 − x4 · x6) of the
  columns, entry by entry. So the stored block's entry (p, 0) is the 3 × 3 determinant of row p of the loaded block: each
  of the fifteen places where the expression reads a column reads entry (p, k) of the block, k the column's number.
-/
import proofs.«103723_j3728031613735_1_alg».proof.Proof.Gen.KernelIdeal.Value
import proofs.«103723_j3728031613735_1_alg».proof.Proof.RowDet

noncomputable section

namespace Cert.KernelIdeal.BlockDet

open Cert.KernelIdeal Cert.KernelIdeal.Gen Cert.KernelIdeal.Value Idealize.ShloMosaic Idealize.ShloMosaic.ValueIdx Cert.RowDet

/-- What one grid point leaves in the output block, at entry `y`: the determinant of row `y 0` of the block it loaded.
    The fifteen reads of the expression, in its order: columns 0, 4, 8, 5, 7; 1, 3, 8, 5, 6; 2, 3, 7, 4, 6. -/
theorem block_det (P0 : Vec Ideal S16384x9 .f32) (y : S16384x1.Idx) :
    View.canon ([⟨r0_1, k0_pay1 P0⟩] : List (View.Piece (Elt Ideal) S16384x1 .f32)) y = det3 (n := 16384) P0 (y 0) := by
  rw [canon1_eq]
  have e0 : ix1_0 y = ix2 (y 0) (0 : Fin 9) := by funext a; match a with | ⟨0, _⟩ => rfl | ⟨1, _⟩ => rfl
  have e1 : ix1_1 y = ix2 (y 0) (4 : Fin 9) := by funext a; match a with | ⟨0, _⟩ => rfl | ⟨1, _⟩ => rfl
  have e2 : ix1_2 y = ix2 (y 0) (8 : Fin 9) := by funext a; match a with | ⟨0, _⟩ => rfl | ⟨1, _⟩ => rfl
  have e3 : ix1_3 y = ix2 (y 0) (5 : Fin 9) := by funext a; match a with | ⟨0, _⟩ => rfl | ⟨1, _⟩ => rfl
  have e4 : ix1_4 y = ix2 (y 0) (7 : Fin 9) := by funext a; match a with | ⟨0, _⟩ => rfl | ⟨1, _⟩ => rfl
  have e5 : ix1_5 y = ix2 (y 0) (1 : Fin 9) := by funext a; match a with | ⟨0, _⟩ => rfl | ⟨1, _⟩ => rfl
  have e6 : ix1_6 y = ix2 (y 0) (3 : Fin 9) := by funext a; match a with | ⟨0, _⟩ => rfl | ⟨1, _⟩ => rfl
  have e7 : ix1_7 y = ix2 (y 0) (8 : Fin 9) := by funext a; match a with | ⟨0, _⟩ => rfl | ⟨1, _⟩ => rfl
  have e8 : ix1_8 y = ix2 (y 0) (5 : Fin 9) := by funext a; match a with | ⟨0, _⟩ => rfl | ⟨1, _⟩ => rfl
  have e9 : ix1_9 y = ix2 (y 0) (6 : Fin 9) := by funext a; match a with | ⟨0, _⟩ => rfl | ⟨1, _⟩ => rfl
  have e10 : ix1_10 y = ix2 (y 0) (2 : Fin 9) := by funext a; match a with | ⟨0, _⟩ => rfl | ⟨1, _⟩ => rfl
  have e11 : ix1_11 y = ix2 (y 0) (3 : Fin 9) := by funext a; match a with | ⟨0, _⟩ => rfl | ⟨1, _⟩ => rfl
  have e12 : ix1_12 y = ix2 (y 0) (7 : Fin 9) := by funext a; match a with | ⟨0, _⟩ => rfl | ⟨1, _⟩ => rfl
  have e13 : ix1_13 y = ix2 (y 0) (4 : Fin 9) := by funext a; match a with | ⟨0, _⟩ => rfl | ⟨1, _⟩ => rfl
  have e14 : ix1_14 y = ix2 (y 0) (6 : Fin 9) := by funext a; match a with | ⟨0, _⟩ => rfl | ⟨1, _⟩ => rfl
  simp only [E1, e0, e1, e2, e3, e4, e5, e6, e7, e8, e9, e10, e11, e12, e13, e14]
  rfl

end Cert.KernelIdeal.BlockDet

end
-- ==== Proof.KernelRowDet.lean ====
/-
  The kernel walks the [8388608, 9] table in 512 blocks of 16384 rows: grid point t loads rows 16384·t … 16384·t + 16383 (all
  nine columns) and writes rows 16384·t … 16384·t + 16383 of the [8388608, 1] result. Row p of the loaded block is row
  16384·t + p of the table, so what point t writes back — the determinants of the block's rows — is block t of the column of
  the TABLE's row determinants. Every row r of the result lies in exactly the block of point r / 16384, so the blocks cover
  the result and after the run the whole result array is the column of the rows' determinants.
-/
import proofs.«103723_j3728031613735_1_alg».proof.Proof.BlockDet

noncomputable section

namespace Cert.KernelIdeal.RowDetValue

open Cert.KernelIdeal Cert.KernelIdeal.Gen Cert.KernelIdeal.Value Cert.KernelIdeal.BlockDet
open Idealize.ShloMosaic Idealize.ShloMosaic.TcCoe Idealize.ShloMosaic.ValueIdx Idealize.SL.Sem Cert.RowDet
open Idealize.ShloMosaic.Pipeline (Dat)

variable (m : (ℓ : Loc nD τ sig) → Buf (Elt Ideal) ℓ) (ρ : Dev nD → PrngReg)

/-- The body's loads and store start at the corner of their buffers. -/
theorem corner : (![0, 0] : Fin 2 → Nat) = fun _ => 0 := funext fun a => by fin_cases a <;> rfl

/-- The two index maps, decided over the 512 grid points: at point `t` the input's block and the output's block are both
    row block number `t`, and both are the one column block there is. -/
theorem block_numbers : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, win0_0.index t (0 : Fin 2) = t.val ∧ win0_0.index t (1 : Fin 2) = 0
    ∧ win0_1.index t (0 : Fin 2) = t.val ∧ win0_1.index t (1 : Fin 2) = 0)

/-- WHAT POINT `t` WRITES BACK is block `t` of the column of the table's row determinants: entry (p, 0) of the written
    block is the determinant of row p of the loaded block, whose nine entries are those of row 16384·t + p of the table. -/
theorem flushed_eq (c : Dev nD) (t : Fin cfg0.N) :
    (dats m 0 c).flushed 1 t = ((cfg0.win 1).blk t).view.read (Elt Ideal) (rowDets (n := 8388608) (V m c main_arg0)) := by
  rw [flushed1]
  unfold out0_1
  simp only [View.ld_unit_zero (S := S16384x9) corner]
  obtain ⟨b0, b1, b2, b3⟩ := block_numbers t
  funext j
  show View.canon ([⟨r0_1, k0_pay1 (iblk m c 0 t)⟩] : List (View.Piece (Elt Ideal) S16384x1 .f32)) j
    = det3 (n := 8388608) (V m c main_arg0) ((((cfg0.win 1).blk t).view.emb j) 0)
  refine (block_det (iblk m c 0 t) j).trans ?_
  refine det3_congr (n := 16384) (n' := 8388608) (iblk m c 0 t) (V m c main_arg0) (j 0) ((((cfg0.win 1).blk t).view.emb j) 0) (fun k => ?_)
  show V m c main_arg0 (((cfg0.win 0).blk t).view.emb (ix2 (j 0) k)) = V m c main_arg0 (ix2 ((((cfg0.win 1).blk t).view.emb j) 0) k)
  refine congrArg (V m c main_arg0) ?_
  funext a; apply Fin.ext
  match a with
  | ⟨0, _⟩ => show win0_0.index t (0 : Fin 2) * 16384 + 1 * (j 0).val = win0_1.index t (0 : Fin 2) * 16384 + 1 * (j 0).val; omega
  | ⟨1, _⟩ => show win0_0.index t (1 : Fin 2) * 9 + 1 * k.val = k.val; omega

/-- An index of the result is in point `t`'s block iff each coordinate is in the block's range on its axis. -/
theorem mem_blk (t : Fin cfg0.N) (i : S8388608x1.Idx) :
    i ∈ ((cfg0.win 1).blk t).view.set ↔ ∀ a : Fin 2, win0_1.index t a * S16384x1.size a ≤ (i a).val ∧ (i a).val < win0_1.index t a * S16384x1.size a + S16384x1.size a := by
  show i ∈ ((View.whole main_v0).slice (win0_1.rect t)).set ↔ _
  rw [View.set_slice_whole, Rect.mem_set_unit]
  exact Iff.rfl

/-- Every row `r` of the result is written by the point `r / 16384`: the 512 blocks cover the result. -/
theorem cover (i : S8388608x1.Idx) : ∃ t : Fin cfg0.N, (cfg0.win 1).flush t = true ∧ i ∈ ((cfg0.win 1).blk t).view.set := by
  have hi0 : (i 0).val < 8388608 := (i 0).isLt
  have hi1 : (i 1).val < 1 := (i 1).isLt
  have hq : (i 0).val / 16384 < cfg0.N := by show (i 0).val / 16384 < 512; omega
  obtain ⟨-, -, b2, b3⟩ := block_numbers ⟨(i 0).val / 16384, hq⟩
  refine ⟨⟨(i 0).val / 16384, hq⟩, flush0_1 _, ?_⟩
  rw [mem_blk]
  intro a
  match a with
  | ⟨0, _⟩ =>
    show win0_1.index ⟨(i 0).val / 16384, hq⟩ (0 : Fin 2) * 16384 ≤ (i 0).val ∧ (i 0).val < win0_1.index ⟨(i 0).val / 16384, hq⟩ (0 : Fin 2) * 16384 + 16384
    rw [b2]
    show (i 0).val / 16384 * 16384 ≤ (i 0).val ∧ (i 0).val < (i 0).val / 16384 * 16384 + 16384
    omega
  | ⟨1, _⟩ =>
    show win0_1.index ⟨(i 0).val / 16384, hq⟩ (1 : Fin 2) * 1 ≤ (i 1).val ∧ (i 1).val < win0_1.index ⟨(i 0).val / 16384, hq⟩ (1 : Fin 2) * 1 + 1
    rw [b3]
    omega

/-- THE RESULT ARRAY after the run is the column of the table's row determinants. -/
theorem final (c : Dev nD) : (dats m 0 c).arrAt 1 cfg0.N = rowDets (n := 8388608) (m ((c : Thread nD τ).loc main_arg0)) :=
  (dats m 0 c).arrAt_eq_of_cover 1 (rowDets (n := 8388608) (V m c main_arg0)) (fun t _ => flushed_eq m c t) cover

/-- The kernel's run at the extended reals: it ends with the result array at the rows' determinants and the table unchanged. -/
theorem run : θ_run defs (onTc (τ := τ) (main (F := Ideal))) ⟨m, fun _ => 0, ρ⟩ fun r => ∀ c : Dev nD,
      r.2.mem ((c : Thread nD τ).loc main_v0) = rowDets (n := 8388608) (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (run_blocks m ρ)

end Cert.KernelIdeal.RowDetValue

end
-- ==== Proof.lean ====
/-
  A batched 3 × 3 determinant: for each of the 8388608 rows of an [8388608, 9] table — a row is a matrix
  [[a b c] [d e f] [g h i]] written out row-major — the kernel and the reference both compute
  a · (e · i − f · h) − b · (d · i − f · g) + c · (d · h − e · g), the cofactor expansion along the first row, with the same
  products, differences and sum in the same grouping, and return the [8388608, 1] column of the results.

  The kernel does it 16384 rows at a time over 512 grid points: a point's written block is the determinants of its
  loaded block's rows (Proof/BlockDet.lean), the loaded block's row p at point t is the table's row 16384·t + p and the 512
  written blocks tile the result (Proof/KernelRowDet.lean). The reference does it on whole columns, and read at an index its
  result is the determinant of that row (Proof/RefRowDet.lean). Both results are therefore ONE function of the table,
  `Cert.RowDet.rowDets` (Proof/RowDet.lean), on the extended reals; since the two expressions agree operation for
  operation, no algebraic law is used and the finiteness of the inputs is never needed.

  The three programs' runs (termination, no fault, the table left as it was) are the generated frame runs of the kernel at
  both instances and the generated run of the reference; the idealized kernel is the kernel's own text read at the extended
  reals (no rewrite to justify).
-/
import proofs.«103723_j3728031613735_1_alg».proof.Defs
import proofs.«103723_j3728031613735_1_alg».proof.Proof.Gen.Kernel
import proofs.«103723_j3728031613735_1_alg».proof.Proof.Gen.Kernel.Skeleton
import proofs.«103723_j3728031613735_1_alg».proof.Proof.Gen.Kernel.Launch
import proofs.«103723_j3728031613735_1_alg».proof.Proof.Gen.Kernel.Points
import proofs.«103723_j3728031613735_1_alg».proof.Proof.Gen.Kernel.Frame
import proofs.«103723_j3728031613735_1_alg».proof.Proof.Gen.KernelIdeal
import proofs.«103723_j3728031613735_1_alg».proof.Proof.Gen.KernelIdeal.Skeleton
import proofs.«103723_j3728031613735_1_alg».proof.Proof.Gen.KernelIdeal.Launch
import proofs.«103723_j3728031613735_1_alg».proof.Proof.Gen.KernelIdeal.Points
import proofs.«103723_j3728031613735_1_alg».proof.Proof.Gen.KernelIdeal.Frame
import proofs.«103723_j3728031613735_1_alg».proof.Proof.Gen.ReferenceIdeal
import proofs.«103723_j3728031613735_1_alg».proof.Proof.Gen.Pre_finite_inputs
import proofs.«103723_j3728031613735_1_alg».proof.Proof.Gen.KernelIdeal.Value
import proofs.«103723_j3728031613735_1_alg».proof.Proof.Gen.ReferenceIdeal.Run
import proofs.«103723_j3728031613735_1_alg».proof.Proof.Gen.ReferenceIdeal.Read
import proofs.«103723_j3728031613735_1_alg».proof.Proof.RefRowDet
import proofs.«103723_j3728031613735_1_alg».proof.Proof.KernelRowDet
import Idealize.ShloMosaic.Adequacy
import Idealize.ShloMosaic.Init

noncomputable section

namespace Cert.Proof

open Idealize.ShloMosaic Idealize.ShloMosaic.TcCoe Idealize.SL.Sem

/-- The kernel as printed runs to the end without a fault and leaves the table unchanged. -/
theorem frame_kernel : Cert.frame_Kernel := fun m ρ _ => Cert.Kernel.Gen.frame m ρ

/-- So does its reading at the extended reals. -/
theorem frame_kernel_ideal : Cert.frame_KernelIdeal := fun m ρ _ => Cert.KernelIdeal.Gen.frame m ρ

/-- The reference runs to the end and leaves the table unchanged: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories holding the same table, the kernel's result array and the reference's both end at the column of the
    rows' 3 × 3 determinants of that table. -/
theorem algebraic : Cert.algebraic_KernelIdeal_ReferenceIdeal := by
  intro m ρ m' ρ' _ hagree
  refine ⟨_, Cert.KernelIdeal.RowDetValue.run m ρ, ?_⟩
  refine (θ_run Cert.ReferenceIdeal.defs _ _).mono (fun _ h c => ⟨(h c).1.trans ?_, (h c).2⟩)
    (Cert.ReferenceIdeal.Value.run (F := Ideal) m' ρ')
  rw [hagree c]
  exact (Cert.ReferenceIdeal.Read.val_main_v32_eq _).trans (Cert.ReferenceIdeal.RefRowDet.result_eq _)

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
